-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v13_0)) (v1 : (c : Dev Cert.KernelIdeal.nD) → Buf (Elt Ideal) ((c.tc : Thread Cert.KernelIdeal.nD Cert.KernelIdeal.τ).loc Cert.KernelIdeal.main_v13_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13_0) = v0 c
          ∧ r.2.mem ((c.tc : Thread Cert.KernelIdeal.nD Cert.KernelIdeal.τ).loc Cert.KernelIdeal.main_v13_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_v15) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x512 : Shape := ⟨2, ![65536, 512]⟩
abbrev S65536x128 : Shape := ⟨2, ![65536, 128]⟩
abbrev S512 : Shape := ⟨1, ![512]⟩
abbrev S128x512 : Shape := ⟨2, ![128, 512]⟩
abbrev S512x128 : Shape := ⟨2, ![512, 128]⟩
abbrev S_ : Shape := ⟨0, ![]⟩

class Facts : Prop where
  bcast_S_S65536x512 : S_.BroadcastsInDim S65536x512 (![] : Fin 0 → Fin S65536x512.rank)
  reducesTo_S65536x512_S_d0_1 : S65536x512.ReducesTo [0, 1] S_
  h_S_ : 0 < S_.numel
  bcast_S_S65536x128 : S_.BroadcastsInDim S65536x128 (![] : Fin 0 → Fin S65536x128.rank)
  reducesTo_S65536x128_S_d0_1 : S65536x128.ReducesTo [0, 1] S_
  bcast_S_S512 : S_.BroadcastsInDim S512 (![] : Fin 0 → Fin S512.rank)
  reducesTo_S512_S_d0 : S512.ReducesTo [0] S_
  bcast_S_S128x512 : S_.BroadcastsInDim S128x512 (![] : Fin 0 → Fin S128x512.rank)
  reducesTo_S128x512_S_d0_1 : S128x512.ReducesTo [0, 1] S_
  bcast_S_S512x128 : S_.BroadcastsInDim S512x128 (![] : Fin 0 → Fin S512x128.rank)
  reducesTo_S512x128_S_d0_1 : S512x128.ReducesTo [0, 1] S_

variable [Facts]

def fn_part1 {F : FTy → Type} [FloatOps F] (main_arg4 : FVec F S512x128 .f32) (main_v13 : IVec S_ 1) (main_v16 : IVec S128x512 1) : IVec S_ 1 :=
  let main_c_5 : IVec S_ 1 := constantI S_ 1 1#1
  let main_v17 : IVec S_ 1 := (fun x v => Host.reduce IntOp.andi x v reducesTo_S128x512_S_d0_1 h_S_) main_v16 main_c_5
  let main_v18 : IVec S_ 1 := andi main_v13 main_v17
  let main_v19 : FVec F S512x128 .f32 := Host.absf main_arg4
  let main_cst_6 : FVec F S_ .f32 := constant S_ .f32 0x7F800000#32
  let main_v20 : FVec F S512x128 .f32 := broadcastInDim S512x128 ![] bcast_S_S512x128 main_cst_6
  let main_v21 : IVec S512x128 1 := cmpf .olt main_v19 main_v20
  let main_c_7 : IVec S_ 1 := constantI S_ 1 1#1
  let main_v22 : IVec S_ 1 := (fun x v => Host.reduce IntOp.andi x v reducesTo_S512x128_S_d0_1 h_S_) main_v21 main_c_7
  let main_v23 : IVec S_ 1 := andi main_v18 main_v22
  main_v23

def fn {F : FTy → Type} [FloatOps F] (main_arg0 : FVec F S65536x512 .f32) (main_arg1 : FVec F S65536x128 .f32) (main_arg2 : FVec F S512 .f32) (main_arg3 : FVec F S128x512 .f32) (main_arg4 : FVec F S512x128 .f32) : IVec S_ 1 :=
  let main_v0 : FVec F S65536x512 .f32 := Host.absf main_arg0
  let main_cst : FVec F S_ .f32 := constant S_ .f32 0x7F800000#32
  let main_v1 : FVec F S65536x512 .f32 := broadcastInDim S65536x512 ![] bcast_S_S65536x512 main_cst
  let main_v2 : IVec S65536x512 1 := cmpf .olt main_v0 main_v1
  let main_c : IVec S_ 1 := constantI S_ 1 1#1
  let main_v3 : IVec S_ 1 := (fun x v => Host.reduce IntOp.andi x v reducesTo_S65536x512_S_d0_1 h_S_) main_v2 main_c
  let main_v4 : FVec F S65536x128 .f32 := Host.absf main_arg1
  let main_cst_0 : FVec F S_ .f32 := constant S_ .f32 0x7F800000#32
  let main_v5 : FVec F S65536x128 .f32 := broadcastInDim S65536x128 ![] bcast_S_S65536x128 main_cst_0
  let main_v6 : IVec S65536x128 1 := cmpf .olt main_v4 main_v5
  let main_c_1 : IVec S_ 1 := constantI S_ 1 1#1
  let main_v7 : IVec S_ 1 := (fun x v => Host.reduce IntOp.andi x v reducesTo_S65536x128_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S128x512 .f32 := Host.absf main_arg3
  let main_cst_4 : FVec F S_ .f32 := constant S_ .f32 0x7F800000#32
  let main_v15 : FVec F S128x512 .f32 := broadcastInDim S128x512 ![] bcast_S_S128x512 main_cst_4
  let main_v16 : IVec S128x512 1 := cmpf .olt main_v14 main_v15
  fn_part1 (F := F) main_arg4 main_v13 main_v16
-- ==== Kernel.lean ====
abbrev S65536x512 : Shape := ⟨2, ![65536, 512]⟩
abbrev S65536x128 : Shape := ⟨2, ![65536, 128]⟩
abbrev S512 : Shape := ⟨1, ![512]⟩
abbrev S128x512 : Shape := ⟨2, ![128, 512]⟩
abbrev S512x128 : Shape := ⟨2, ![512, 128]⟩
abbrev S_ : Shape := ⟨0, ![]⟩
abbrev S1 : Shape := ⟨1, ![1]⟩
abbrev S1x512 : Shape := ⟨2, ![1, 512]⟩
abbrev S2048x512 : Shape := ⟨2, ![2048, 512]⟩
abbrev S2048x128 : Shape := ⟨2, ![2048, 128]⟩

abbrev nBuf : Space → Nat
  | .hbm => 23
  | .vmem => 11
  | .smem => 0
  | _ => 0

abbrev bufTy : (tb : Table) → Fin (tcTables nBuf tb) → BufTy
  | .hbm, ⟨0, _⟩ => ⟨S65536x512, .f32⟩
  | .hbm, ⟨1, _⟩ => ⟨S65536x128, .f32⟩
  | .hbm, ⟨2, _⟩ => ⟨S512, .f32⟩
  | .hbm, ⟨3, _⟩ => ⟨S128x512, .f32⟩
  | .hbm, ⟨4, _⟩ => ⟨S512x128, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S1, .f32⟩
  | .hbm, ⟨10, _⟩ => ⟨S512, .f32⟩
  | .hbm, ⟨11, _⟩ => ⟨S512, .f32⟩
  | .hbm, ⟨12, _⟩ => ⟨S512, .f32⟩
  | .hbm, ⟨13, _⟩ => ⟨S_, .f32⟩
  | .hbm, ⟨14, _⟩ => ⟨S_, .f32⟩
  | .hbm, ⟨15, _⟩ => ⟨S1, .f32⟩
  | .hbm, ⟨16, _⟩ => ⟨S512, .f32⟩
  | .hbm, ⟨17, _⟩ => ⟨S512, .f32⟩
  | .hbm, ⟨18, _⟩ => ⟨S1x512, .f32⟩
  | .hbm, ⟨19, _⟩ => ⟨S128x512, .bf16⟩
  | .hbm, ⟨20, _⟩ => ⟨S512x128, .bf16⟩
  | .hbm, ⟨21, _⟩ => ⟨S65536x512, .f32⟩
  | .hbm, ⟨22, _⟩ => ⟨S65536x128, .f32⟩
  | .local _ .vmem, ⟨0, _⟩ => ⟨S2048x512, .f32⟩
  | .local _ .vmem, ⟨1, _⟩ => ⟨S2048x512, .f32⟩
  | .local _ .vmem, ⟨2, _⟩ => ⟨S2048x128, .f32⟩
  | .local _ .vmem, ⟨3, _⟩ => ⟨S2048x128, .f32⟩
  | .local _ .vmem, ⟨4, _⟩ => ⟨S1x512, .f32⟩
  | .local _ .vmem, ⟨5, _⟩ => ⟨S128x512, .bf16⟩
  | .local _ .vmem, ⟨6, _⟩ => ⟨S512x128, .bf16⟩
  | .local _ .vmem, ⟨7, _⟩ => ⟨S2048x512, .f32⟩
  | .local _ .vmem, ⟨8, _⟩ => ⟨S2048x512, .f32⟩
  | .local _ .vmem, ⟨9, _⟩ => ⟨S2048x128, .f32⟩
  | .local _ .vmem, ⟨10, _⟩ => ⟨S2048x128, .f32⟩
  | _, _ => ⟨S65536x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13_0 : Ref sig .tc := ⟨.hbm, 21, rfl⟩
abbrev main_v13_1 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2048x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  reducesTo_S512_S_d0 : S512.ReducesTo [0] S_
  h_S_ : 0 < S_.numel
  bcast_S_S1 : S_.BroadcastsInDim S1 (![] : Fin 0 → Fin S1.rank)
  bcast_S1_S512_0 : S1.BroadcastsInDim S512 (![0] : Fin 1 → Fin S512.rank)
  bcast_S512_S1x512_1 : S512.BroadcastsInDim S1x512 (![1] : Fin 1 → Fin S1x512.rank)
  bitsLt_bf16_f32 : FTy.bits .bf16 < FTy.bits .f32
  inb_S2048x512_S2048x512_0_0 : ∀ a, (![0, 0] : Fin 2 → Nat) a + S2048x512.size a ≤ S2048x512.size a
  h_S2048x512 : 0 < S2048x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2048x512 : S1x512.Broadcasts S2048x512
  inb_S2048x128_S2048x128_0_0 : ∀ a, (![0, 0] : Fin 2 → Nat) a + S2048x128.size a ≤ S2048x128.size a
  h_S2048x128 : 0 < S2048x128.numel
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S512x128_S512x128_0_0 : ∀ a, (![0, 0] : Fin 2 → Nat) a + S512x128.size a ≤ S512x128.size a
  h_S512x128 : 0 < S512x128.numel
  shapeCasts_S512x128_S512x128 : S512x128.ShapeCasts S512x128
  dot_S2048x128_S128x512_S2048x512_1_0_0_1_n_n_wf : DotDims.WF S2048x128 S128x512 S2048x512 [1] [0] [0] [1] [] []
  dot_S2048x512_S512x128_S2048x128_1_0_0_1_n_n_wf : DotDims.WF S2048x512 S512x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S65536x512.size a
  hwx0_0 : ∀ i : grid0.Coords, EltTy.bits .f32 = 32 ∨ (Rect.block (s := S65536x512) S2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S65536x128.size a
  hwx0_1 : ∀ i : grid0.Coords, EltTy.bits .f32 = 32 ∨ (Rect.block (s := S65536x128) S2048x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x512.size a ≤ S128x512.size a
  hwx0_3 : ∀ i : grid0.Coords, EltTy.bits .bf16 = 32 ∨ (Rect.block (s := S128x512) S128x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x128.size a ≤ S512x128.size a
  hwx0_4 : ∀ i : grid0.Coords, EltTy.bits .bf16 = 32 ∨ (Rect.block (s := S512x128) S512x128.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x512.size a ≤ S65536x512.size a
  hwx0_5 : ∀ i : grid0.Coords, EltTy.bits .f32 = 32 ∨ (Rect.block (s := S65536x512) S2048x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2048x128.size a ≤ S65536x128.size a
  hwx0_6 : ∀ i : grid0.Coords, EltTy.bits .f32 = 32 ∨ (Rect.block (s := S65536x128) S2048x128.size (cc0_transform_6 i) (hinb0_6 i)).WholeWords (EltTy.packing .f32)

variable [Facts₀]

def dot_S2048x128_S128x512_S2048x512_1_0_0_1_n_n : DotDims S2048x128 S128x512 S2048x512 where
  lhsContracting := [1]
  rhsContracting := [0]
  lhsNonContracting := [0]
  rhsNonContracting := [1]
  lhsBatch := []
  rhsBatch := []
  wf := dot_S2048x128_S128x512_S2048x512_1_0_0_1_n_n_wf
def dot_S2048x512_S512x128_S2048x128_1_0_0_1_n_n : DotDims S2048x512 S512x128 S2048x128 where
  lhsContracting := [1]
  rhsContracting := [0]
  lhsNonContracting := [0]
  rhsNonContracting := [1]
  lhsBatch := []
  rhsBatch := []
  wf := dot_S2048x512_S512x128_S2048x128_1_0_0_1_n_n_wf

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S128x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v12) S512x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v13_0) S2048x512.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v13_1) S2048x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S65536x512 : Shape := ⟨2, ![65536, 512]⟩
abbrev S65536x128 : Shape := ⟨2, ![65536, 128]⟩
abbrev S512 : Shape := ⟨1, ![512]⟩
abbrev S128x512 : Shape := ⟨2, ![128, 512]⟩
abbrev S512x128 : Shape := ⟨2, ![512, 128]⟩
abbrev S_ : Shape := ⟨0, ![]⟩
abbrev S1 : Shape := ⟨1, ![1]⟩
abbrev S1x512 : Shape := ⟨2, ![1, 512]⟩

abbrev nBuf : Space → Nat
  | .hbm => 24
  | .vmem => 0
  | .smem => 0
  | _ => 0

abbrev bufTy : (tb : Table) → Fin (tcTables nBuf tb) → BufTy
  | .hbm, ⟨0, _⟩ => ⟨S65536x512, .f32⟩
  | .hbm, ⟨1, _⟩ => ⟨S65536x128, .f32⟩
  | .hbm, ⟨2, _⟩ => ⟨S512, .f32⟩
  | .hbm, ⟨3, _⟩ => ⟨S128x512, .f32⟩
  | .hbm, ⟨4, _⟩ => ⟨S512x128, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S1, .f32⟩
  | .hbm, ⟨10, _⟩ => ⟨S512, .f32⟩
  | .hbm, ⟨11, _⟩ => ⟨S512, .f32⟩
  | .hbm, ⟨12, _⟩ => ⟨S512, .f32⟩
  | .hbm, ⟨13, _⟩ => ⟨S_, .f32⟩
  | .hbm, ⟨14, _⟩ => ⟨S_, .f32⟩
  | .hbm, ⟨15, _⟩ => ⟨S1, .f32⟩
  | .hbm, ⟨16, _⟩ => ⟨S512, .f32⟩
  | .hbm, ⟨17, _⟩ => ⟨S512, .f32⟩
  | .hbm, ⟨18, _⟩ => ⟨S1x512, .f32⟩
  | .hbm, ⟨19, _⟩ => ⟨S65536x512, .f32⟩
  | .hbm, ⟨20, _⟩ => ⟨S65536x512, .f32⟩
  | .hbm, ⟨21, _⟩ => ⟨S65536x512, .f32⟩
  | .hbm, ⟨22, _⟩ => ⟨S65536x512, .f32⟩
  | .hbm, ⟨23, _⟩ => ⟨S65536x128, .f32⟩
  | _, _ => ⟨S65536x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩

abbrev nD : Nat := 1
abbrev τ : Topo := Topo.v7x

variable {F : FTy → Type} [FloatOps F]

class Facts₀ : Prop where
  reducesTo_S512_S_d0 : S512.ReducesTo [0] S_
  h_S_ : 0 < S_.numel
  bcast_S_S1 : S_.BroadcastsInDim S1 (![] : Fin 0 → Fin S1.rank)
  bcast_S1_S512_0 : S1.BroadcastsInDim S512 (![0] : Fin 1 → Fin S512.rank)
  bcast_S512_S1x512_1 : S512.BroadcastsInDim S1x512 (![1] : Fin 1 → Fin S1x512.rank)
  bcast_S1x512_S65536x512_0_1 : S1x512.BroadcastsInDim S65536x512 (![0, 1] : Fin 2 → Fin S65536x512.rank)
  dot_S65536x128_S128x512_S65536x512_1_0_0_1_n_n_wf : DotDims.WF S65536x128 S128x512 S65536x512 [1] [0] [0] [1] [] []
  dot_S65536x512_S512x128_S65536x128_1_0_0_1_n_n_wf : DotDims.WF S65536x512 S512x128 S65536x128 [1] [0] [0] [1] [] []

variable [Facts₀]

def dot_S65536x128_S128x512_S65536x512_1_0_0_1_n_n : DotDims S65536x128 S128x512 S65536x512 where
  lhsContracting := [1]
  rhsContracting := [0]
  lhsNonContracting := [0]
  rhsNonContracting := [1]
  lhsBatch := []
  rhsBatch := []
  wf := dot_S65536x128_S128x512_S65536x512_1_0_0_1_n_n_wf
def dot_S65536x512_S512x128_S65536x128_1_0_0_1_n_n : DotDims S65536x512 S512x128 S65536x128 where
  lhsContracting := [1]
  rhsContracting := [0]
  lhsNonContracting := [0]
  rhsNonContracting := [1]
  lhsBatch := []
  rhsBatch := []
  wf := dot_S65536x512_S512x128_S65536x128_1_0_0_1_n_n_wf

class Facts : Prop extends Facts₀ where

variable [Facts]
-- ==== Proof.StepSpec.lean ====
/-
  One step of a diagonal linear recurrence, index by index on the extended reals.

  The state `x` has 65536 rows of 512 entries, the input `u` 65536 rows of 128. With a row `d` of
  512 decay factors, an input matrix `b` (128 × 512) and a readout matrix `c` (512 × 128):

    nextState x u d b (r, j) = x (r, j) · d j + Σ_{k < 128} u (r, k) · b (k, j)
    readout   s c     (r, o) = Σ_{j < 512} s (r, j) · c (j, o)

  Row `r` of either result depends on row `r` of `x` and `u` only, so the functions restrict to any
  band of rows: this is what lets a computation done band by band be compared with one done on the
  whole arrays. Nothing here needs the entries to be finite: the two sides that are compared add and
  multiply the same terms in the same grouping.
-/
import Idealize.ShloMosaic.PureOps.Ideal
import Idealize.ShloMosaic.Lib.ValueIdx

noncomputable section

open scoped BigOperators

namespace Cert.Recurrence

open Idealize.ShloMosaic Idealize.ShloMosaic.ValueIdx

/-- The new state: each entry decayed by its column's factor, plus the input row driven through `b`. -/
def nextState (x : (⟨2, ![65536, 512]⟩ : Shape).Idx → EReal) (u : (⟨2, ![65536, 128]⟩ : Shape).Idx → EReal)
    (d : (⟨2, ![1, 512]⟩ : Shape).Idx → EReal) (b : (⟨2, ![128, 512]⟩ : Shape).Idx → EReal) :
    (⟨2, ![65536, 512]⟩ : Shape).Idx → EReal :=
  fun i => x i * d (ix2 (0 : Fin 1) (i 1)) + ∑ k : Fin 128, u (ix2 (i 0) k) * b (ix2 k (i 1))

/-- The readout: each state row multiplied into `c`. -/
def readout (s : (⟨2, ![65536, 512]⟩ : Shape).Idx → EReal) (c : (⟨2, ![512, 128]⟩ : Shape).Idx → EReal) :
    (⟨2, ![65536, 128]⟩ : Shape).Idx → EReal :=
  fun i => ∑ j : Fin 512, s (ix2 (i 0) j) * c (ix2 j (i 1))

/-- The new state at explicit coordinates. -/
theorem nextState_ix (x : (⟨2, ![65536, 512]⟩ : Shape).Idx → EReal) (u : (⟨2, ![65536, 128]⟩ : Shape).Idx → EReal)
    (d : (⟨2, ![1, 512]⟩ : Shape).Idx → EReal) (b : (⟨2, ![128, 512]⟩ : Shape).Idx → EReal) (r : Fin 65536) (j : Fin 512) :
    nextState x u d b (ix2 r j) = x (ix2 r j) * d (ix2 (0 : Fin 1) j) + ∑ k : Fin 128, u (ix2 r k) * b (ix2 k j) := rfl

/-- The readout at explicit coordinates. -/
theorem readout_ix (s : (⟨2, ![65536, 512]⟩ : Shape).Idx → EReal) (c : (⟨2, ![512, 128]⟩ : Shape).Idx → EReal)
    (r : Fin 65536) (o : Fin 128) :
    readout s c (ix2 r o) = ∑ j : Fin 512, s (ix2 r j) * c (ix2 j o) := rfl

end Cert.Recurrence

end
-- ==== Proof.BlockStep.lean ====
/-
  What the kernel body computes on one band of 2048 rows, entry by entry, at the ideal values.

  The body loads a band `x0` of the state (2048 × 512), the decay row `x1` (1 × 512), a band `x5` of the
  input (2048 × 128) and the two weight matrices `x7` (128 × 512) and `x14` (512 × 128). A change of float
  format is the identity on extended reals, a shape cast to the same shape is the identity, a row
  broadcast over the band's rows reads the row, and a matrix product into a zero accumulator is the plain
  sum of products over the contracted axis. So the first stored value is, at row `p` and column `q`,

    x0 (p, q) · x1 (0, q) + Σ_{k < 128} x5 (p, k) · x7 (k, q)

  and the second, at row `p` and column `o`, the sum over `j < 512` of the first at (p, j) times x14 (j, o).
-/
import proofs.«176475_j56856777064872_1_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.KernelIdeal.Block

open Cert.KernelIdeal Cert.KernelIdeal.Gen Idealize.ShloMosaic Idealize.ShloMosaic.ValueIdx

/-! ## The decay row broadcast over a band -/

/-- The decay row, cast to its own shape twice and broadcast over the band's 2048 rows, reads the row's
    entry of that column at every row. -/
theorem decay_over_rows (x1 : Vec Ideal S1x512 .f32) (p : Fin 2048) (q : Fin 512) :
    broadcastTo S2048x512 (shapeCast S1x512 (shapeCast S1x512 x1 shapeCasts_S1x512_S1x512) shapeCasts_S1x512_S1x512)
        broadcasts_S1x512_S2048x512 (ix2 p q) = x1 (ix2 (0 : Fin 1) q) := by
  rw [shapeCast_self, shapeCast_self]
  refine broadcastTo_apply _ _ _ (ix2 (0 : Fin 1) q) fun a => ?_
  match a with
  | ⟨0, _⟩ => show (0 : Nat) = if (1 : Nat) = 1 then 0 else _; rw [if_pos rfl]
  | ⟨1, _⟩ => show q.val = if (512 : Nat) = 1 then 0 else q.val; rw [if_neg (by decide)]

/-! ## The input band driven through the input matrix: a 2048 × 128 by 128 × 512 product -/

theorem drive_lhs_0 (i : S2048x512.Idx) (q : dot_S2048x128_S128x512_S2048x512_1_0_0_1_n_n.contr.Idx) :
    (dot_S2048x128_S128x512_S2048x512_1_0_0_1_n_n.lhsIdx i q 0).val = (i 0).val := by
  unfold DotDims.lhsIdx
  rw [dif_neg (show ¬(0 : Fin S2048x128.rank) ∈ dot_S2048x128_S128x512_S2048x512_1_0_0_1_n_n.lhsBatch by decide), dif_pos (show (0 : Fin S2048x128.rank) ∈ dot_S2048x128_S128x512_S2048x512_1_0_0_1_n_n.lhsNonContracting by decide)]
  rfl
theorem drive_lhs_1 (i : S2048x512.Idx) (q : dot_S2048x128_S128x512_S2048x512_1_0_0_1_n_n.contr.Idx) :
    (dot_S2048x128_S128x512_S2048x512_1_0_0_1_n_n.lhsIdx i q 1).val = (q ⟨0, by decide⟩).val :=
  dot_S2048x128_S128x512_S2048x512_1_0_0_1_n_n.lhsIdx_val_of_single rfl i q
theorem drive_rhs_0 (i : S2048x512.Idx) (q : dot_S2048x128_S128x512_S2048x512_1_0_0_1_n_n.contr.Idx) :
    (dot_S2048x128_S128x512_S2048x512_1_0_0_1_n_n.rhsIdx i q 0).val = (q ⟨0, by decide⟩).val :=
  dot_S2048x128_S128x512_S2048x512_1_0_0_1_n_n.rhsIdx_val_of_single rfl i q
theorem drive_rhs_1 (i : S2048x512.Idx) (q : dot_S2048x128_S128x512_S2048x512_1_0_0_1_n_n.contr.Idx) :
    (dot_S2048x128_S128x512_S2048x512_1_0_0_1_n_n.rhsIdx i q 1).val = (i 1).val := by
  unfold DotDims.rhsIdx
  rw [dif_neg (show ¬(1 : Fin S128x512.rank) ∈ dot_S2048x128_S128x512_S2048x512_1_0_0_1_n_n.rhsBatch by decide), dif_pos (show (1 : Fin S128x512.rank) ∈ dot_S2048x128_S128x512_S2048x512_1_0_0_1_n_n.rhsNonContracting by decide)]
  rfl

/-- The band's product with the input matrix into a zero accumulator, at row `p` and column `q`: the sum over
    the 128 input features of the band's entry times the matrix's. -/
theorem drive_apply (l : FVec Ideal S2048x128 .bf16) (x7 : Vec Ideal S128x512 .bf16) (p : Fin 2048) (q : Fin 512) :
    matmul dot_S2048x128_S128x512_S2048x512_1_0_0_1_n_n none l (shapeCast S128x512 x7 shapeCasts_S128x512_S128x512 : FVec Ideal S128x512 .bf16)
        (constant S2048x512 .f32 0x00000000#32) (ix2 p q)
      = ∑ k : Fin 128, l (ix2 p k) * x7 (ix2 k q) := by
  rw [shapeCast_self]
  simp only [matmul]
  rw [Ideal.matmul_constant_zero_apply, ← Equiv.sum_comp (ValueIdx.contrEquiv1 dot_S2048x128_S128x512_S2048x512_1_0_0_1_n_n 128 rfl rfl).symm]
  refine Finset.sum_congr rfl fun k _ => ?_
  have hk := ValueIdx.contrEquiv1_symm_val dot_S2048x128_S128x512_S2048x512_1_0_0_1_n_n 128 rfl rfl k
  have el : dot_S2048x128_S128x512_S2048x512_1_0_0_1_n_n.lhsIdx (ix2 p q) ((ValueIdx.contrEquiv1 dot_S2048x128_S128x512_S2048x512_1_0_0_1_n_n 128 rfl rfl).symm k) = ix2 p k := funext fun a => Fin.ext (by
    match a with
    | ⟨0, _⟩ => exact drive_lhs_0 _ _
    | ⟨1, _⟩ => exact (drive_lhs_1 _ _).trans hk)
  have er : dot_S2048x128_S128x512_S2048x512_1_0_0_1_n_n.rhsIdx (ix2 p q) ((ValueIdx.contrEquiv1 dot_S2048x128_S128x512_S2048x512_1_0_0_1_n_n 128 rfl rfl).symm k) = ix2 k q := funext fun a => Fin.ext (by
    match a with
    | ⟨0, _⟩ => exact (drive_rhs_0 _ _).trans hk
    | ⟨1, _⟩ => exact drive_rhs_1 _ _)
  rw [el, er]

/-! ## The new band read out: a 2048 × 512 by 512 × 128 product -/

theorem read_lhs_0 (i : S2048x128.Idx) (q : dot_S2048x512_S512x128_S2048x128_1_0_0_1_n_n.contr.Idx) :
    (dot_S2048x512_S512x128_S2048x128_1_0_0_1_n_n.lhsIdx i q 0).val = (i 0).val := by
  unfold DotDims.lhsIdx
  rw [dif_neg (show ¬(0 : Fin S2048x512.rank) ∈ dot_S2048x512_S512x128_S2048x128_1_0_0_1_n_n.lhsBatch by decide), dif_pos (show (0 : Fin S2048x512.rank) ∈ dot_S2048x512_S512x128_S2048x128_1_0_0_1_n_n.lhsNonContracting by decide)]
  rfl
theorem read_lhs_1 (i : S2048x128.Idx) (q : dot_S2048x512_S512x128_S2048x128_1_0_0_1_n_n.contr.Idx) :
    (dot_S2048x512_S512x128_S2048x128_1_0_0_1_n_n.lhsIdx i q 1).val = (q ⟨0, by decide⟩).val :=
  dot_S2048x512_S512x128_S2048x128_1_0_0_1_n_n.lhsIdx_val_of_single rfl i q
theorem read_rhs_0 (i : S2048x128.Idx) (q : dot_S2048x512_S512x128_S2048x128_1_0_0_1_n_n.contr.Idx) :
    (dot_S2048x512_S512x128_S2048x128_1_0_0_1_n_n.rhsIdx i q 0).val = (q ⟨0, by decide⟩).val :=
  dot_S2048x512_S512x128_S2048x128_1_0_0_1_n_n.rhsIdx_val_of_single rfl i q
theorem read_rhs_1 (i : S2048x128.Idx) (q : dot_S2048x512_S512x128_S2048x128_1_0_0_1_n_n.contr.Idx) :
    (dot_S2048x512_S512x128_S2048x128_1_0_0_1_n_n.rhsIdx i q 1).val = (i 1).val := by
  unfold DotDims.rhsIdx
  rw [dif_neg (show ¬(1 : Fin S512x128.rank) ∈ dot_S2048x512_S512x128_S2048x128_1_0_0_1_n_n.rhsBatch by decide), dif_pos (show (1 : Fin S512x128.rank) ∈ dot_S2048x512_S512x128_S2048x128_1_0_0_1_n_n.rhsNonContracting by decide)]
  rfl

/-- The new band's product with the readout matrix into a zero accumulator, at row `p` and column `o`: the sum
    over the 512 state entries of the band's entry times the matrix's. -/
theorem read_apply (l : FVec Ideal S2048x512 .bf16) (x14 : Vec Ideal S512x128 .bf16) (p : Fin 2048) (o : Fin 128) :
    matmul dot_S2048x512_S512x128_S2048x128_1_0_0_1_n_n none l (shapeCast S512x128 x14 shapeCasts_S512x128_S512x128 : FVec Ideal S512x128 .bf16)
        (constant S2048x128 .f32 0x00000000#32) (ix2 p o)
      = ∑ j : Fin 512, l (ix2 p j) * x14 (ix2 j o) := by
  rw [shapeCast_self]
  simp only [matmul]
  rw [Ideal.matmul_constant_zero_apply, ← Equiv.sum_comp (ValueIdx.contrEquiv1 dot_S2048x512_S512x128_S2048x128_1_0_0_1_n_n 512 rfl rfl).symm]
  refine Finset.sum_congr rfl fun k _ => ?_
  have hk := ValueIdx.contrEquiv1_symm_val dot_S2048x512_S512x128_S2048x128_1_0_0_1_n_n 512 rfl rfl k
  have el : dot_S2048x512_S512x128_S2048x128_1_0_0_1_n_n.lhsIdx (ix2 p o) ((ValueIdx.contrEquiv1 dot_S2048x512_S512x128_S2048x128_1_0_0_1_n_n 512 rfl rfl).symm k) = ix2 p k := funext fun a => Fin.ext (by
    match a with
    | ⟨0, _⟩ => exact read_lhs_0 _ _
    | ⟨1, _⟩ => exact (read_lhs_1 _ _).trans hk)
  have er : dot_S2048x512_S512x128_S2048x128_1_0_0_1_n_n.rhsIdx (ix2 p o) ((ValueIdx.contrEquiv1 dot_S2048x512_S512x128_S2048x128_1_0_0_1_n_n 512 rfl rfl).symm k) = ix2 k o := funext fun a => Fin.ext (by
    match a with
    | ⟨0, _⟩ => exact (read_rhs_0 _ _).trans hk
    | ⟨1, _⟩ => exact read_rhs_1 _ _)
  rw [el, er]

/-! ## The two stored values -/

/-- The band of the new state the body stores, at row `p` and column `q`. -/
theorem newBand_apply (x0 : Vec Ideal S2048x512 .f32) (x1 : Vec Ideal S1x512 .f32) (x5 : Vec Ideal S2048x128 .f32)
    (x7 : Vec Ideal S128x512 .bf16) (p : Fin 2048) (q : Fin 512) :
    k0_pay1 x0 x1 x5 x7 (ix2 p q)
      = x0 (ix2 p q) * x1 (ix2 (0 : Fin 1) q) + ∑ k : Fin 128, x5 (ix2 p k) * x7 (ix2 k q) := by
  unfold k0_pay1
  exact congrArg₂ (fun a b : EReal => x0 (ix2 p q) * a + b) (decay_over_rows x1 p q)
    (drive_apply (truncf .bf16 x5 bitsLt_bf16_f32) x7 p q)

/-- The band of the output the body stores, at row `p` and column `o`: the new band's row against the readout
    matrix's column. -/
theorem outBand_apply (x0 : Vec Ideal S2048x512 .f32) (x1 : Vec Ideal S1x512 .f32) (x5 : Vec Ideal S2048x128 .f32)
    (x7 : Vec Ideal S128x512 .bf16) (x14 : Vec Ideal S512x128 .bf16) (p : Fin 2048) (o : Fin 128) :
    k0_pay2 x0 x1 x5 x7 x14 (ix2 p o) = ∑ j : Fin 512, k0_pay1 x0 x1 x5 x7 (ix2 p j) * x14 (ix2 j o) := by
  unfold k0_pay2
  exact read_apply (truncf .bf16 (k0_pay1 x0 x1 x5 x7) bitsLt_bf16_f32) x14 p o

end Cert.KernelIdeal.Block

end
-- ==== Proof.Bands.lean ====
/-
  From bands to whole arrays: the kernel's two result arrays as the recurrence step of the arrays the
  region finds.

  The grid has 32 points; point `t` works on the band of rows `2048 t … 2048 t + 2047`. Its state and input
  blocks are those rows of the state and input arrays, its two output blocks are written back to the same
  rows of the two result arrays, and the decay row and the two weight matrices are whole-array blocks, the
  same at every point. Since a row of the step depends on that row of the state and of the input only,
  what point `t` writes back is band `t` of the step applied to the whole arrays; the 32 bands cover all
  65536 rows, so after the run each result array IS that function of the arrays.
-/
import proofs.«176475_j56856777064872_1_alg».proof.Proof.Gen.KernelIdeal.Value
import proofs.«176475_j56856777064872_1_alg».proof.Proof.StepSpec
import proofs.«176475_j56856777064872_1_alg».proof.Proof.BlockStep
import Idealize.ShloMosaic.Lib.Pipeline.Value
import Idealize.ShloMosaic.Lib.StableHlo.Run

noncomputable section

open scoped BigOperators

namespace Cert.KernelIdeal.Bands

open Cert.KernelIdeal Cert.KernelIdeal.Gen Cert.KernelIdeal.Value Idealize.ShloMosaic Idealize.ShloMosaic.TcCoe Idealize.SL.Sem
open Idealize.ShloMosaic.ValueIdx Idealize.ShloMosaic.StableHlo
open Idealize.ShloMosaic.Pipeline (Dat)
open Cert.Recurrence

variable (m : (ℓ : Loc nD τ sig) → Buf (Elt Ideal) ℓ) (ρ : Dev nD → PrngReg)

theorem hz : (![0, 0] : Fin 2 → Nat) = fun _ => 0 := funext fun a => by fin_cases a <;> rfl

/-- The index maps over the grid: the state, the input and the two outputs move down one band per point and
    never sideways; the decay row and the two weight matrices stay at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

theorem point_lt (t : Fin cfg0.N) : t.val < 32 := by
  have h := t.isLt; have hN : cfg0.N = 32 := N_0; omega

/-! ## Each input block as rows of its array -/

/-- The state block at point `t` is rows `2048 t + p` of the state array. -/
theorem stateBand_apply (c : Dev nD) (t : Fin cfg0.N) (p : Fin 2048) (q : Fin 512) (hr : t.val * 2048 + p.val < 65536) :
    (iblk m c 0 t : Vec Ideal S2048x512 .f32) (ix2 p q)
      = (V m c main_arg0 : S65536x512.Idx → EReal) (ix2 (⟨t.val * 2048 + p.val, hr⟩ : Fin 65536) q) := by
  obtain ⟨e0, e1, -⟩ := idx_facts t
  unfold iblk
  rw [View.read_apply]
  show V m c main_arg0 _ = V m c main_arg0 _
  congr 1
  funext a; apply Fin.ext
  match a with
  | ⟨0, _⟩ => show win0_0.index t (0 : Fin 2) * 2048 + 1 * p.val = t.val * 2048 + p.val; rw [e0]; omega
  | ⟨1, _⟩ => show win0_0.index t (1 : Fin 2) * 512 + 1 * q.val = q.val; rw [e1]; omega

/-- The input block at point `t` is rows `2048 t + p` of the input array. -/
theorem inputBand_apply (c : Dev nD) (t : Fin cfg0.N) (p : Fin 2048) (k : Fin 128) (hr : t.val * 2048 + p.val < 65536) :
    (iblk m c 1 t : Vec Ideal S2048x128 .f32) (ix2 p k)
      = (V m c main_arg1 : S65536x128.Idx → EReal) (ix2 (⟨t.val * 2048 + p.val, hr⟩ : Fin 65536) k) := by
  obtain ⟨-, -, e0, e1, -⟩ := idx_facts t
  unfold iblk
  rw [View.read_apply]
  show V m c main_arg1 _ = V m c main_arg1 _
  congr 1
  funext a; apply Fin.ext
  match a with
  | ⟨0, _⟩ => show win0_1.index t (0 : Fin 2) * 2048 + 1 * p.val = t.val * 2048 + p.val; rw [e0]; omega
  | ⟨1, _⟩ => show win0_1.index t (1 : Fin 2) * 128 + 1 * k.val = k.val; rw [e1]; omega

/-- The decay block is the decay row, at every point. -/
theorem decayBlock_apply (c : Dev nD) (t : Fin cfg0.N) (q : Fin 512) :
    (iblk m c 2 t : Vec Ideal S1x512 .f32) (ix2 (0 : Fin 1) q)
      = (V m c main_v10 : S1x512.Idx → EReal) (ix2 (0 : Fin 1) q) := by
  obtain ⟨-, -, -, -, e0, e1, -⟩ := idx_facts t
  unfold iblk
  rw [View.read_apply]
  show V m c main_v10 _ = V m c main_v10 _
  congr 1
  funext a; apply Fin.ext
  match a with
  | ⟨0, _⟩ => show win0_2.index t (0 : Fin 2) * 1 + 1 * 0 = 0; rw [e0]
  | ⟨1, _⟩ => show win0_2.index t (1 : Fin 2) * 512 + 1 * q.val = q.val; rw [e1]; omega

/-- The input-matrix block is the whole matrix, at every point. -/
theorem driveBlock_apply (c : Dev nD) (t : Fin cfg0.N) (k : Fin 128) (q : Fin 512) :
    (iblk m c 3 t : Vec Ideal S128x512 .bf16) (ix2 k q)
      = (V m c main_v11 : S128x512.Idx → EReal) (ix2 k q) := by
  obtain ⟨-, -, -, -, -, -, e0, e1, -⟩ := idx_facts t
  unfold iblk
  rw [View.read_apply]
  show V m c main_v11 _ = V m c main_v11 _
  congr 1
  funext a; apply Fin.ext
  match a with
  | ⟨0, _⟩ => show win0_3.index t (0 : Fin 2) * 128 + 1 * k.val = k.val; rw [e0]; omega
  | ⟨1, _⟩ => show win0_3.index t (1 : Fin 2) * 512 + 1 * q.val = q.val; rw [e1]; omega

/-- The readout-matrix block is the whole matrix, at every point. -/
theorem readBlock_apply (c : Dev nD) (t : Fin cfg0.N) (j : Fin 512) (o : Fin 128) :
    (iblk m c 4 t : Vec Ideal S512x128 .bf16) (ix2 j o)
      = (V m c main_v12 : S512x128.Idx → EReal) (ix2 j o) := by
  obtain ⟨-, -, -, -, -, -, -, -, e0, e1, -⟩ := idx_facts t
  unfold iblk
  rw [View.read_apply]
  show V m c main_v12 _ = V m c main_v12 _
  congr 1
  funext a; apply Fin.ext
  match a with
  | ⟨0, _⟩ => show win0_4.index t (0 : Fin 2) * 512 + 1 * j.val = j.val; rw [e0]; omega
  | ⟨1, _⟩ => show win0_4.index t (1 : Fin 2) * 128 + 1 * o.val = o.val; rw [e1]; omega

/-! ## What a point computes is its band of the step on the whole arrays -/

/-- The new state as a function of the arrays the region finds. -/
abbrev stateOut (c : Dev nD) : S65536x512.Idx → EReal :=
  nextState (V m c main_arg0) (V m c main_arg1) (V m c main_v10) (V m c main_v11)

/-- The output as a function of the arrays the region finds. -/
abbrev readOut (c : Dev nD) : S65536x128.Idx → EReal :=
  readout (stateOut m c) (V m c main_v12)

/-- The new band at point `t`, row `p`: row `2048 t + p` of the new state. -/
theorem newBand_eq (c : Dev nD) (t : Fin cfg0.N) (p : Fin 2048) (q : Fin 512) (hr : t.val * 2048 + p.val < 65536) :
    k0_pay1 (iblk m c 0 t) (iblk m c 2 t) (iblk m c 1 t) (iblk m c 3 t) (ix2 p q)
      = stateOut m c (ix2 (⟨t.val * 2048 + p.val, hr⟩ : Fin 65536) q) := by
  refine (Block.newBand_apply (iblk m c 0 t) (iblk m c 2 t) (iblk m c 1 t) (iblk m c 3 t) p q).trans ?_
  refine Eq.trans ?_ (nextState_ix (V m c main_arg0) (V m c main_arg1) (V m c main_v10) (V m c main_v11)
    (⟨t.val * 2048 + p.val, hr⟩ : Fin 65536) q).symm
  exact congrArg₂ (· + ·) (congrArg₂ (· * ·) (stateBand_apply m c t p q hr) (decayBlock_apply m c t q))
    (Finset.sum_congr rfl fun k _ => congrArg₂ (· * ·) (inputBand_apply m c t p k hr) (driveBlock_apply m c t k q))

/-- The output band at point `t`, row `p`: row `2048 t + p` of the output. -/
theorem outBand_eq (c : Dev nD) (t : Fin cfg0.N) (p : Fin 2048) (o : Fin 128) (hr : t.val * 2048 + p.val < 65536) :
    k0_pay2 (iblk m c 0 t) (iblk m c 2 t) (iblk m c 1 t) (iblk m c 3 t) (iblk m c 4 t) (ix2 p o)
      = readOut m c (ix2 (⟨t.val * 2048 + p.val, hr⟩ : Fin 65536) o) := by
  refine (Block.outBand_apply (iblk m c 0 t) (iblk m c 2 t) (iblk m c 1 t) (iblk m c 3 t) (iblk m c 4 t) p o).trans ?_
  refine Eq.trans ?_ (readout_ix (stateOut m c) (V m c main_v12) (⟨t.val * 2048 + p.val, hr⟩ : Fin 65536) o).symm
  exact Finset.sum_congr rfl fun j _ => congrArg₂ (· * ·) (newBand_eq m c t p j hr) (readBlock_apply m c t j o)

/-! ## What a point writes back -/

/-- Point `t` writes back band `t` of the new state. -/
theorem flushed_state (c : Dev nD) (t : Fin cfg0.N) :
    (dats m 0 c).flushed 5 t = ((cfg0.win 5).blk t).view.read (Elt Ideal) (stateOut m c) := by
  rw [Value.flushed5]
  unfold out0_5
  rw [View.canon_unit_zero hz]
  simp only [View.ld_unit_zero (S := S2048x512) hz, View.ld_unit_zero (S := S1x512) hz,
    View.ld_unit_zero (S := S2048x128) hz, View.ld_unit_zero (S := S128x512) hz]
  funext j
  obtain ⟨p, q, rfl⟩ : ∃ (p : Fin 2048) (q : Fin 512), j = ix2 p q := ⟨j 0, j 1, eq_ix2 j⟩
  have ht := point_lt t
  have hr : t.val * 2048 + p.val < 65536 := by have := p.isLt; omega
  obtain ⟨-, -, -, -, -, -, -, -, -, -, e0, e1, -⟩ := idx_facts t
  show k0_pay1 (iblk m c 0 t) (iblk m c 2 t) (iblk m c 1 t) (iblk m c 3 t) (ix2 p q)
    = stateOut m c (((cfg0.win 5).blk t).view.emb (ix2 p q))
  have hemb : ((cfg0.win 5).blk t).view.emb (ix2 p q) = ix2 (⟨t.val * 2048 + p.val, hr⟩ : Fin 65536) q := by
    funext a; apply Fin.ext
    match a with
    | ⟨0, _⟩ => show win0_5.index t (0 : Fin 2) * 2048 + 1 * p.val = t.val * 2048 + p.val; rw [e0]; omega
    | ⟨1, _⟩ => show win0_5.index t (1 : Fin 2) * 512 + 1 * q.val = q.val; rw [e1]; omega
  rw [hemb]
  exact newBand_eq m c t p q hr

/-- Point `t` writes back band `t` of the output. -/
theorem flushed_out (c : Dev nD) (t : Fin cfg0.N) :
    (dats m 0 c).flushed 6 t = ((cfg0.win 6).blk t).view.read (Elt Ideal) (readOut m c) := by
  rw [Value.flushed6]
  unfold out0_6
  rw [View.canon_unit_zero hz]
  simp only [View.ld_unit_zero (S := S2048x512) hz, View.ld_unit_zero (S := S1x512) hz,
    View.ld_unit_zero (S := S2048x128) hz, View.ld_unit_zero (S := S128x512) hz, View.ld_unit_zero (S := S512x128) hz]
  funext j
  obtain ⟨p, o, rfl⟩ : ∃ (p : Fin 2048) (o : Fin 128), j = ix2 p o := ⟨j 0, j 1, eq_ix2 j⟩
  have ht := point_lt t
  have hr : t.val * 2048 + p.val < 65536 := by have := p.isLt; omega
  obtain ⟨-, -, -, -, -, -, -, -, -, -, -, -, e0, e1⟩ := idx_facts t
  show k0_pay2 (iblk m c 0 t) (iblk m c 2 t) (iblk m c 1 t) (iblk m c 3 t) (iblk m c 4 t) (ix2 p o)
    = readOut m c (((cfg0.win 6).blk t).view.emb (ix2 p o))
  have hemb : ((cfg0.win 6).blk t).view.emb (ix2 p o) = ix2 (⟨t.val * 2048 + p.val, hr⟩ : Fin 65536) o := by
    funext a; apply Fin.ext
    match a with
    | ⟨0, _⟩ => show win0_6.index t (0 : Fin 2) * 2048 + 1 * p.val = t.val * 2048 + p.val; rw [e0]; omega
    | ⟨1, _⟩ => show win0_6.index t (1 : Fin 2) * 128 + 1 * o.val = o.val; rw [e1]; omega
  rw [hemb]
  exact outBand_eq m c t p o hr

/-! ## The bands cover the arrays -/

/-- An index of the new-state array is in point `t`'s block iff each coordinate is in the block's range. -/
theorem mem_stateBand (t : Fin cfg0.N) (i : S65536x512.Idx) :
    i ∈ ((cfg0.win 5).blk t).view.set ↔ ∀ a : Fin 2, win0_5.index t a * S2048x512.size a ≤ (i a).val ∧ (i a).val < win0_5.index t a * S2048x512.size a + S2048x512.size a := by
  show i ∈ ((View.whole main_v13_0).slice (win0_5.rect t)).set ↔ _
  rw [View.set_slice_whole, Rect.mem_set_unit]
  exact Iff.rfl

/-- An index of the output array is in point `t`'s block iff each coordinate is in the block's range. -/
theorem mem_outBand (t : Fin cfg0.N) (i : S65536x128.Idx) :
    i ∈ ((cfg0.win 6).blk t).view.set ↔ ∀ a : Fin 2, win0_6.index t a * S2048x128.size a ≤ (i a).val ∧ (i a).val < win0_6.index t a * S2048x128.size a + S2048x128.size a := by
  show i ∈ ((View.whole main_v13_1).slice (win0_6.rect t)).set ↔ _
  rw [View.set_slice_whole, Rect.mem_set_unit]
  exact Iff.rfl

/-- Row `r` of the new state is in the block of point `r / 2048`. -/
theorem state_covered (i : S65536x512.Idx) :
    ∃ t : Fin cfg0.N, (cfg0.win 5).flush t = true ∧ i ∈ ((cfg0.win 5).blk t).view.set := by
  have hi0 : (i 0).val < 65536 := (i 0).isLt
  have hi1 : (i 1).val < 512 := (i 1).isLt
  obtain ⟨t, htv⟩ : ∃ t : Fin cfg0.N, t.val = (i 0).val / 2048 :=
    ⟨⟨(i 0).val / 2048, by rw [show cfg0.N = 32 from N_0]; omega⟩, rfl⟩
  obtain ⟨-, -, -, -, -, -, -, -, -, -, e0, e1, -⟩ := idx_facts t
  refine ⟨t, flush0_5 t, ?_⟩
  rw [mem_stateBand]
  intro a
  match a with
  | ⟨0, _⟩ => show win0_5.index t (0 : Fin 2) * 2048 ≤ (i 0).val ∧ (i 0).val < win0_5.index t (0 : Fin 2) * 2048 + 2048; rw [e0, htv]; omega
  | ⟨1, _⟩ => show win0_5.index t (1 : Fin 2) * 512 ≤ (i 1).val ∧ (i 1).val < win0_5.index t (1 : Fin 2) * 512 + 512; rw [e1]; omega

/-- Row `r` of the output is in the block of point `r / 2048`. -/
theorem out_covered (i : S65536x128.Idx) :
    ∃ t : Fin cfg0.N, (cfg0.win 6).flush t = true ∧ i ∈ ((cfg0.win 6).blk t).view.set := by
  have hi0 : (i 0).val < 65536 := (i 0).isLt
  have hi1 : (i 1).val < 128 := (i 1).isLt
  obtain ⟨t, htv⟩ : ∃ t : Fin cfg0.N, t.val = (i 0).val / 2048 :=
    ⟨⟨(i 0).val / 2048, by rw [show cfg0.N = 32 from N_0]; omega⟩, rfl⟩
  obtain ⟨-, -, -, -, -, -, -, -, -, -, -, -, e0, e1⟩ := idx_facts t
  refine ⟨t, flush0_6 t, ?_⟩
  rw [mem_outBand]
  intro a
  match a with
  | ⟨0, _⟩ => show win0_6.index t (0 : Fin 2) * 2048 ≤ (i 0).val ∧ (i 0).val < win0_6.index t (0 : Fin 2) * 2048 + 2048; rw [e0, htv]; omega
  | ⟨1, _⟩ => show win0_6.index t (1 : Fin 2) * 128 ≤ (i 1).val ∧ (i 1).val < win0_6.index t (1 : Fin 2) * 128 + 128; rw [e1]; omega

/-! ## The result arrays after the run -/

/-- The new-state array ends holding the step's new state of the arrays the region finds. -/
theorem final_state (c : Dev nD) : (dats m 0 c).arrAt 5 cfg0.N = stateOut m c :=
  (dats m 0 c).arrAt_eq_of_cover 5 (stateOut m c) (fun t _ => flushed_state m c t) state_covered

/-- The output array ends holding the step's readout. -/
theorem final_out (c : Dev nD) : (dats m 0 c).arrAt 6 cfg0.N = readOut m c :=
  (dats m 0 c).arrAt_eq_of_cover 6 (readOut m c) (fun t _ => flushed_out m c t) out_covered

/-! ## The arrays the region finds -/

/-- The input matrix reaches the region through a change of float format only: the identity on extended reals. -/
theorem driveWeights_eq (c : Dev nD) :
    (V m c main_v11 : S128x512.Idx → EReal) = (m ((c : Thread nD τ).loc main_arg3) : S128x512.Idx → EReal) := by
  dsimp only [V, hostOps0]; after_results; rfl

/-- So does the readout matrix. -/
theorem readWeights_eq (c : Dev nD) :
    (V m c main_v12 : S512x128.Idx → EReal) = (m ((c : Thread nD τ).loc main_arg4) : S512x128.Idx → EReal) := by
  dsimp only [V, hostOps0]; after_results; rfl

/-- The kernel's run: the two result arrays at the step of the launch contents of the state, the input and the two
    matrices and of the decay row the host operations before the region leave; the arguments unchanged. -/
theorem run : θ_run defs (onTc (τ := τ) (main (F := Ideal))) ⟨m, fun _ => 0, ρ⟩ fun r => ∀ c : Dev nD,
      r.2.mem ((c : Thread nD τ).loc main_v13_0)
        = nextState (m ((c : Thread nD τ).loc main_arg0)) (m ((c : Thread nD τ).loc main_arg1)) (V m c main_v10) (m ((c : Thread nD τ).loc main_arg3))
      ∧ r.2.mem ((c : Thread nD τ).loc main_v13_1)
        = readout (nextState (m ((c : Thread nD τ).loc main_arg0)) (m ((c : Thread nD τ).loc main_arg1)) (V m c main_v10) (m ((c : Thread nD τ).loc main_arg3))) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨by
      rw [(h c).1, final_state m c]
      show nextState (V m c main_arg0) (V m c main_arg1) (V m c main_v10) (V m c main_v11) = _
      rw [V_main_arg0, V_main_arg1, driveWeights_eq], by
      rw [(h c).2.1, final_out m c]
      show readout (nextState (V m c main_arg0) (V m c main_arg1) (V m c main_v10) (V m c main_v11)) (V m c main_v12) = _
      rw [V_main_arg0, V_main_arg1, driveWeights_eq, readWeights_eq], (h c).2.2⟩)
    (Value.run_blocks m ρ)

end Cert.KernelIdeal.Bands

end
-- ==== Proof.WholeStep.lean ====
/-
  The reference computes the recurrence step on the whole arrays.

  Its new state is the state times the softmax row broadcast over all rows, plus the input multiplied into the
  input matrix; its output is the new state multiplied into the readout matrix. Read at an index through the
  stage-by-stage reading of its run, with each product a sum over the contracted coordinate, these are the
  step's two functions of the state, the input, the decay row (the reference's own softmax stage, kept as it
  is: the kernel computes it with the same operations) and the two matrices.
-/
import proofs.«176475_j56856777064872_1_alg».proof.Proof.Gen.ReferenceIdeal.Read
import proofs.«176475_j56856777064872_1_alg».proof.Proof.StepSpec

noncomputable section

open scoped BigOperators

namespace Cert.ReferenceIdeal.Whole

open Cert.ReferenceIdeal Cert.ReferenceIdeal.Gen Cert.ReferenceIdeal.Read Idealize.ShloMosaic Idealize.ShloMosaic.ValueIdx
open Cert.Recurrence

/-- The row broadcast reads the decay row at the entry's column. -/
theorem decayIdx_eq (i : S65536x512.Idx) : idx_main_v11 i = ix2 (0 : Fin 1) (i 1) :=
  funext fun a => Fin.ext (by match a with | ⟨0, _⟩ => rfl | ⟨1, _⟩ => rfl)
/-- The first product reads the input at the entry's row … -/
theorem driveL_eq (i : S65536x512.Idx) (k : Fin 128) : lidx_main_v13 i k = ix2 (i 0) k :=
  funext fun a => Fin.ext (by match a with | ⟨0, _⟩ => rfl | ⟨1, _⟩ => rfl)
/-- … and the input matrix at the entry's column. -/
theorem driveR_eq (i : S65536x512.Idx) (k : Fin 128) : ridx_main_v13 i k = ix2 k (i 1) :=
  funext fun a => Fin.ext (by match a with | ⟨0, _⟩ => rfl | ⟨1, _⟩ => rfl)
/-- The second product reads the new state at the entry's row … -/
theorem readL_eq (i : S65536x128.Idx) (k : Fin 512) : lidx_main_v15 i k = ix2 (i 0) k :=
  funext fun a => Fin.ext (by match a with | ⟨0, _⟩ => rfl | ⟨1, _⟩ => rfl)
/-- … and the readout matrix at the entry's column. -/
theorem readR_eq (i : S65536x128.Idx) (k : Fin 512) : ridx_main_v15 i k = ix2 k (i 1) :=
  funext fun a => Fin.ext (by match a with | ⟨0, _⟩ => rfl | ⟨1, _⟩ => rfl)

/-- The reference's first result is the step's new state, with the reference's softmax row as the decay row. -/
theorem state_eq (x0 : (⟨S65536x512, .f32⟩ : BufTy).Contents (Elt Ideal)) (x1 : (⟨S65536x128, .f32⟩ : BufTy).Contents (Elt Ideal))
    (x2 : (⟨S512, .f32⟩ : BufTy).Contents (Elt Ideal)) (x3 : (⟨S128x512, .f32⟩ : BufTy).Contents (Elt Ideal)) :
    val_main_v14 (F := Ideal) x0 x1 x2 x3 = nextState x0 x1 (val_main_v10 (F := Ideal) x2) x3 := by
  funext i
  rw [val_main_v14_apply, val_main_v12_apply, val_main_v11_apply, val_main_v13_apply]
  simp only [decayIdx_eq, driveL_eq, driveR_eq]
  rfl

/-- The reference's second result is the step's readout of its first. -/
theorem out_eq (x0 : (⟨S65536x512, .f32⟩ : BufTy).Contents (Elt Ideal)) (x1 : (⟨S65536x128, .f32⟩ : BufTy).Contents (Elt Ideal))
    (x2 : (⟨S512, .f32⟩ : BufTy).Contents (Elt Ideal)) (x3 : (⟨S128x512, .f32⟩ : BufTy).Contents (Elt Ideal))
    (x4 : (⟨S512x128, .f32⟩ : BufTy).Contents (Elt Ideal)) :
    val_main_v15 (F := Ideal) x0 x1 x2 x3 x4 = readout (val_main_v14 (F := Ideal) x0 x1 x2 x3) x4 := by
  funext i
  rw [val_main_v15_apply]
  simp only [readL_eq, readR_eq]
  rfl

end Cert.ReferenceIdeal.Whole

end
-- ==== Proof.lean ====
/-
  The kernel computes one step of a diagonal linear recurrence band by band, the reference on the whole
  arrays; at the ideal values they are the same two functions of the arguments.

    new state (r, j) = x (r, j) · softmax(a) j + Σ_k u (r, k) · b (k, j)
    output    (r, o) = Σ_j new state (r, j) · c (j, o)

  The kernel's side (Proof/BlockStep.lean: the body's two stored values entry by entry; Proof/Bands.lean: each
  point's blocks are a band of 2048 rows, the 32 bands cover the arrays) and the reference's side
  (Proof/WholeStep.lean) both end at the functions of Proof/StepSpec.lean. Between the two only three things
  differ, none of them a difference on extended reals: the kernel passes its matrix operands through a narrower
  float format (the identity), multiplies on the matrix unit into a zero accumulator where the reference takes a
  general dot product (both the plain sum over the contracted axis), and cuts the rows into bands (a row of the
  step depends on that row only). The decay row is the softmax of the logits, computed on both sides by the same
  host operations before anything else, so the kernel's row IS the reference's softmax stage of the same logits.
  The sums are compared term by term in the same grouping, so no finiteness of the inputs is used.
  The idealization rewrote nothing, so the kernel's idealized program is its own text read at the ideal values.
-/
import proofs.«176475_j56856777064872_1_alg».proof.Defs
import proofs.«176475_j56856777064872_1_alg».proof.Proof.Gen.Kernel
import proofs.«176475_j56856777064872_1_alg».proof.Proof.Gen.Kernel.Skeleton
import proofs.«176475_j56856777064872_1_alg».proof.Proof.Gen.Kernel.Launch
import proofs.«176475_j56856777064872_1_alg».proof.Proof.Gen.Kernel.Points
import proofs.«176475_j56856777064872_1_alg».proof.Proof.Gen.Kernel.Frame
import proofs.«176475_j56856777064872_1_alg».proof.Proof.Gen.KernelIdeal
import proofs.«176475_j56856777064872_1_alg».proof.Proof.Gen.KernelIdeal.Skeleton
import proofs.«176475_j56856777064872_1_alg».proof.Proof.Gen.KernelIdeal.Launch
import proofs.«176475_j56856777064872_1_alg».proof.Proof.Gen.KernelIdeal.Points
import proofs.«176475_j56856777064872_1_alg».proof.Proof.Gen.KernelIdeal.Frame
import proofs.«176475_j56856777064872_1_alg».proof.Proof.Gen.ReferenceIdeal
import proofs.«176475_j56856777064872_1_alg».proof.Proof.Gen.Pre_finite_inputs
import proofs.«176475_j56856777064872_1_alg».proof.Proof.Gen.KernelIdeal.Value
import proofs.«176475_j56856777064872_1_alg».proof.Proof.Gen.ReferenceIdeal.Run
import proofs.«176475_j56856777064872_1_alg».proof.Proof.Gen.ReferenceIdeal.Read
import proofs.«176475_j56856777064872_1_alg».proof.Proof.StepSpec
import proofs.«176475_j56856777064872_1_alg».proof.Proof.Bands
import proofs.«176475_j56856777064872_1_alg».proof.Proof.WholeStep
import Idealize.ShloMosaic.Lib.StableHlo.Run
import Idealize.ShloMosaic.Adequacy
import Idealize.ShloMosaic.Init

noncomputable section

namespace Cert.Proof

open Idealize.ShloMosaic Idealize.ShloMosaic.TcCoe Idealize.SL.Sem Idealize.ShloMosaic.StableHlo
open Cert.Recurrence

/-- The decay row the kernel's region finds is the reference's softmax stage of the same logits: the host
    operations that produce it are the same on both sides. -/
theorem decay_is_softmax (m : (ℓ : Loc Cert.KernelIdeal.nD Cert.KernelIdeal.τ Cert.KernelIdeal.sig) → Buf (Elt Ideal) ℓ)
    (c : Dev Cert.KernelIdeal.nD) :
    (Cert.KernelIdeal.Gen.V m c Cert.KernelIdeal.main_v10 : Cert.KernelIdeal.S1x512.Idx → EReal)
      = Cert.ReferenceIdeal.Read.val_main_v10 (F := Ideal)
          (m ((c : Thread Cert.KernelIdeal.nD Cert.KernelIdeal.τ).loc Cert.KernelIdeal.main_arg2)) := by
  dsimp only [Cert.KernelIdeal.Gen.V, Cert.KernelIdeal.Gen.hostOps0]; after_results; rfl

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- Both programs end with the step's new state and readout of the same arguments. -/
theorem algebraic : Cert.algebraic_KernelIdeal_ReferenceIdeal := by
  intro m ρ m' ρ' _ hagree
  refine ⟨_, _, Cert.KernelIdeal.Bands.run m ρ, ?_⟩
  refine (θ_run Cert.ReferenceIdeal.defs _ _).mono (fun _ h c => ?_) (Cert.ReferenceIdeal.Value.run (F := Ideal) m' ρ')
  obtain ⟨h0, h1, h2, h3, h4⟩ := hagree c
  refine ⟨(h c).1.trans ?_, (h c).2.1.trans ?_, (h c).2.2⟩
  · rw [Cert.ReferenceIdeal.Read.val_main_v14_eq, Cert.ReferenceIdeal.Whole.state_eq, h0, h1, h2, h3, decay_is_softmax m c]
  · rw [Cert.ReferenceIdeal.Read.val_main_v15_eq, Cert.ReferenceIdeal.Whole.out_eq, Cert.ReferenceIdeal.Whole.state_eq,
      h0, h1, h2, h3, h4, decay_is_softmax m c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
